-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S1x128 : Shape := ⟨2, ![1, 128]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S50000x64 .f32) (main_arg1 : IVec S800000 32) (main_arg2 : IVec S800000 32) (main_arg3 : FVec F S1x128 .f32) (main_arg4 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S50000x64 : Shape := ⟨2, ![50000, 64]⟩
abbrev S800000 : Shape := ⟨1, ![800000]⟩
abbrev S1x128 : Shape := ⟨2, ![1, 128]⟩
abbrev S1 : Shape := ⟨1, ![1]⟩
abbrev S1x64 : Shape := ⟨2, ![1, 64]⟩
abbrev S1x1 : Shape := ⟨2, ![1, 1]⟩
abbrev S50000x1 : Shape := ⟨2, ![50000, 1]⟩
abbrev S5000x64 : Shape := ⟨2, ![5000, 64]⟩
abbrev S5000x1 : Shape := ⟨2, ![5000, 1]⟩
abbrev S5000 : Shape := ⟨1, ![5000]⟩
abbrev S50000 : Shape := ⟨1, ![50000]⟩
abbrev S_ : Shape := ⟨0, ![]⟩
abbrev S800000x1 : Shape := ⟨2, ![800000, 1]⟩
abbrev S6250x128 : Shape := ⟨2, ![6250, 128]⟩

abbrev nBuf : Space → Nat
  | .hbm => 34
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S1x128, .f32⟩
  | .hbm, ⟨4, _⟩ => ⟨S1, .f32⟩
  | .hbm, ⟨5, _⟩ => ⟨S1x64, .f32⟩
  | .hbm, ⟨6, _⟩ => ⟨S1x64, .f32⟩
  | .hbm, ⟨7, _⟩ => ⟨S1x1, .f32⟩
  | .hbm, ⟨8, _⟩ => ⟨S50000x1, .f32⟩
  | .hbm, ⟨9, _⟩ => ⟨S50000x1, .f32⟩
  | .hbm, ⟨10, _⟩ => ⟨S50000, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S6250x128, .f32⟩
  | .hbm, ⟨31, _⟩ => ⟨S6250x128, .f32⟩
  | .hbm, ⟨32, _⟩ => ⟨S6250x128, .f32⟩
  | .hbm, ⟨33, _⟩ => ⟨S800000x1, .f32⟩
  | .local _ .vmem, ⟨0, _⟩ => ⟨S5000x64, .f32⟩
  | .local _ .vmem, ⟨1, _⟩ => ⟨S5000x64, .f32⟩
  | .local _ .vmem, ⟨2, _⟩ => ⟨S1x64, .f32⟩
  | .local _ .vmem, ⟨3, _⟩ => ⟨S1x64, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S6250x128, .f32⟩
  | .local _ .vmem, ⟨9, _⟩ => ⟨S6250x128, .f32⟩
  | .local _ .vmem, ⟨10, _⟩ => ⟨S1x1, .f32⟩
  | .local _ .vmem, ⟨11, _⟩ => ⟨S6250x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S6250x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S6250x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6250x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S1x128_S1x64_0_0 : S1x128.Slices ![0, 0] S1x64
  slices_S1x128_S1x64_0_64 : S1x128.Slices ![0, 64] S1x64
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  bcast_S_S800000 : S_.BroadcastsInDim S800000 (![] : Fin 0 → Fin S800000.rank)
  bcast_S800000_S800000x1_0 : S800000.BroadcastsInDim S800000x1 (![0] : Fin 1 → Fin S800000x1.rank)
  shapeCasts_S800000_S6250x128 : S800000.ShapeCasts S6250x128
  inb_S6250x128_S6250x128_0_0 : ∀ a, (![0, 0] : Fin 2 → Nat) a + S6250x128.size a ≤ S6250x128.size a
  h_S6250x128 : 0 < S6250x128.numel
  shapeCasts_S6250x128_S6250x128 : S6250x128.ShapeCasts S6250x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6250x128 : S1x1.Broadcasts S6250x128
  shapeCasts_S6250x128_S800000x1 : S6250x128.ShapeCasts S800000x1
  gather_S50000_S800000x1_S800000_n_0_n_n_0_1_1_wf : GatherDims.WF S50000 S800000x1 S800000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S6250x128.size a ≤ S6250x128.size a
  hwx1_0 : ∀ i : grid1.Coords, EltTy.bits .f32 = 32 ∨ (Rect.block (s := S6250x128) S6250x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6250x128.size a ≤ S6250x128.size a
  hwx1_1 : ∀ i : grid1.Coords, EltTy.bits .f32 = 32 ∨ (Rect.block (s := S6250x128) S6250x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6250x128.size a ≤ S6250x128.size a
  hwx1_3 : ∀ i : grid1.Coords, EltTy.bits .f32 = 32 ∨ (Rect.block (s := S6250x128) S6250x128.size (cc1_transform_3 i) (hinb1_3 i)).WholeWords (EltTy.packing .f32)

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S5000x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S6250x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v21) S6250x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S6250x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S1x128 : Shape := ⟨2, ![1, 128]⟩
abbrev S1 : Shape := ⟨1, ![1]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S1x128, .f32⟩
  | .hbm, ⟨4, _⟩ => ⟨S1, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S1x64, .f32⟩
  | .hbm, ⟨24, _⟩ => ⟨S1x64, .f32⟩
  | .hbm, ⟨25, _⟩ => ⟨S800000x1, .f32⟩
  | .hbm, ⟨26, _⟩ => ⟨S800000x1, .f32⟩
  | .hbm, ⟨27, _⟩ => ⟨S800000x1, .f32⟩
  | .hbm, ⟨28, _⟩ => ⟨S1x1, .f32⟩
  | .hbm, ⟨29, _⟩ => ⟨S800000x1, .f32⟩
  | .hbm, ⟨30, _⟩ => ⟨S800000x1, .f32⟩
  | .hbm, ⟨31, _⟩ => ⟨S800000x1, .f32⟩
  | .hbm, ⟨32, _⟩ => ⟨S800000x1, .f32⟩
  | .hbm, ⟨33, _⟩ => ⟨S_, .f32⟩
  | .hbm, ⟨34, _⟩ => ⟨S800000x1, .f32⟩
  | .hbm, ⟨35, _⟩ => ⟨S800000x1, .f32⟩
  | .hbm, ⟨36, _⟩ => ⟨S_, .f32⟩
  | .hbm, ⟨37, _⟩ => ⟨S800000x1, .f32⟩
  | .hbm, ⟨38, _⟩ => ⟨S800000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S1x128_S1x64_0_0 : S1x128.Slices ![0, 0] S1x64
  slices_S1x128_S1x64_0_64 : S1x128.Slices ![0, 64] S1x64
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  gather_S50000x64_S800000x1_S800000x64_1_0_n_n_0_1_164_wf : GatherDims.WF S50000x64 S800000x1 S800000x64 [1] [0] [] [0] [] 1 ![1, 64]
  dot_S800000x64_S1x64_S800000x1_1_1_0_0_n_n_wf : DotDims.WF S800000x64 S1x64 S800000x1 [1] [1] [0] [0] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S1x64_S800000x1_1_1_0_0_n_n : DotDims S800000x64 S1x64 S800000x1 where
  lhsContracting := [1]
  rhsContracting := [1]
  lhsNonContracting := [0]
  rhsNonContracting := [0]
  lhsBatch := []
  rhsBatch := []
  wf := dot_S800000x64_S1x64_S800000x1_1_1_0_0_n_n_wf

class Facts : Prop extends Facts₀ where

variable [Facts]
-- ==== Proof.Payloads.lean ====
/-
  The kernels' arithmetic, read at one entry, over the extended reals.

  The scoring kernel's block is 5000 nodes by 64 features. Each of its two results at node `p` is the sum over the
  64 features of feature times weight — a lane reduction over the feature axis from the accumulator zero, which over
  the extended reals is that 64-term sum itself —, kept as a column. The combining kernel's result at (row, lane) is
  the logistic function of the two gathered scores there plus the one bias entry.
-/
import proofs.«425207_j68066641707591_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payloads

open Cert.KernelIdeal Cert.KernelIdeal.Gen
open Idealize.ShloMosaic Idealize.ShloMosaic.ValueIdx

/-- A vector of 5000 entries kept as a 5000 × 1 column reads, at row `p`, entry `p`: the two have the same row-major
    position. -/
theorem column_apply {α : Type} (v : S5000.Idx → α) (p : Fin 5000) (z : Fin 1) :
    shapeCast S5000x1 v shapeCasts_S5000_S5000x1 (ix2 p z) = v (ix1 p) :=
  shapeCast_apply v shapeCasts_S5000_S5000x1 (ix2 p z) (ix1 p) (by
    rw [Shape.rowMajor_val_one, Shape.rowMajor_val_two]
    show p.val = p.val * 1 + z.val
    have := z.isLt
    omega)

/-- The sum over the feature axis of a 5000 × 64 block, at node `p`: the 64-term sum of row `p`. -/
theorem rowSum_apply (v : FVec Ideal S5000x64 .f32) (p : Fin 5000) :
    multiReduction .add [1] S5000 v 0x00000000#32 reduces_S5000x64_S5000 (.inl rfl) rfl (ix1 p) = ∑ k : Fin 64, v (ix2 p k) := by
  refine (Ideal.multiReduction_add_single v 0x00000000#32 reduces_S5000x64_S5000 (.inl rfl) rfl (ix1 p)).trans ?_
  exact Finset.sum_congr rfl fun k _ => congrArg v (funext fun a => Fin.ext (by
    match a with
    | ⟨0, _⟩ => rfl
    | ⟨1, _⟩ => rfl))

/-- A 1 × 64 weight row laid over the 5000 nodes reads, at (node, feature), the weight of that feature. -/
theorem weightRow_apply {α : Type} (w : S1x64.Idx → α) (p : Fin 5000) (k : Fin 64) :
    broadcastTo S5000x64 (shapeCast S1x64 w shapeCasts_S1x64_S1x64) broadcasts_S1x64_S5000x64 (ix2 p k) = w (ix2 (0 : Fin 1) k) := by
  rw [shapeCast_self]
  exact broadcastTo_apply w broadcasts_S1x64_S5000x64 (ix2 p k) (ix2 (0 : Fin 1) k) (fun a => match a with
    | ⟨0, _⟩ => by show (0 : Nat) = if (1 : Nat) = 1 then 0 else p.val; rw [if_pos rfl]
    | ⟨1, _⟩ => by show k.val = if (64 : Nat) = 1 then 0 else k.val; rw [if_neg (by decide)])

/-- THE FIRST SCORE at node `p` of a block: the sum over the features of feature times weight. -/
theorem score_u_apply (x0 : FVec Ideal S5000x64 .f32) (x1 : FVec Ideal S1x64 .f32) (p : Fin 5000) (z : Fin 1) :
    k0_pay1 (F := Ideal) x0 x1 (ix2 p z) = ∑ k : Fin 64, x0 (ix2 p k) * x1 (ix2 (0 : Fin 1) k) := by
  unfold k0_pay1
  refine (column_apply _ p z).trans ?_
  refine (rowSum_apply _ p).trans ?_
  exact Finset.sum_congr rfl fun k _ => congrArg (x0 (ix2 p k) * ·) (weightRow_apply x1 p k)

/-- THE SECOND SCORE at node `p` of a block: the same sum against the second weight row. -/
theorem score_v_apply (x0 : FVec Ideal S5000x64 .f32) (x3 : FVec Ideal S1x64 .f32) (p : Fin 5000) (z : Fin 1) :
    k0_pay2 (F := Ideal) x0 x3 (ix2 p z) = ∑ k : Fin 64, x0 (ix2 p k) * x3 (ix2 (0 : Fin 1) k) := by
  unfold k0_pay2
  refine (column_apply _ p z).trans ?_
  refine (rowSum_apply _ p).trans ?_
  exact Finset.sum_congr rfl fun k _ => congrArg (x0 (ix2 p k) * ·) (weightRow_apply x3 p k)

/-- The 1 × 1 bias laid over the 6250 × 128 block reads its one entry everywhere. -/
theorem bias_apply {α : Type} (b : S1x1.Idx → α) (j : S6250x128.Idx) :
    broadcastTo S6250x128 (shapeCast S1x1 b shapeCasts_S1x1_S1x1) broadcasts_S1x1_S6250x128 j = b (ix2 (0 : Fin 1) (0 : Fin 1)) := by
  rw [shapeCast_self]
  exact broadcastTo_apply b broadcasts_S1x1_S6250x128 j (ix2 (0 : Fin 1) (0 : Fin 1)) (fun a => match a with
    | ⟨0, _⟩ => by show (0 : Nat) = if (1 : Nat) = 1 then 0 else _; rw [if_pos rfl]
    | ⟨1, _⟩ => by show (0 : Nat) = if (1 : Nat) = 1 then 0 else _; rw [if_pos rfl])

/-- THE COMBINED RESULT at one (row, lane): the logistic function of the two scores there plus the bias. -/
theorem combine_apply (a b : FVec Ideal S6250x128 .f32) (bias : FVec Ideal S1x1 .f32) (j : S6250x128.Idx) :
    k1_pay1 (F := Ideal) a b bias j = Ideal.logistic (a j + b j + bias (ix2 (0 : Fin 1) (0 : Fin 1))) := by
  unfold k1_pay1
  show Ideal.logistic (shapeCast S6250x128 a shapeCasts_S6250x128_S6250x128 j + shapeCast S6250x128 b shapeCasts_S6250x128_S6250x128 j
    + broadcastTo S6250x128 (shapeCast S1x1 bias shapeCasts_S1x1_S1x1) broadcasts_S1x1_S6250x128 j) = _
  rw [shapeCast_self, shapeCast_self, bias_apply]

end Cert.KernelIdeal.Payloads

end
-- ==== Proof.Spec.lean ====
/-
  The function both programs compute, index by index, over the extended reals.

  Edge `e` joins the node its source index names to the node its destination index names. A start index is a
  32-bit word read as a signed integer and clamped into the table's rows `[0, 49999]`: the row a gather along
  the 50000-row axis reads, whatever the word. A node's score against a 64-entry weight row is the sum over the
  64 features of feature times weight. The result at edge `e` is the logistic function of
  (score of the source node against the first weight row + score of the destination node against the second)
  + bias. Scoring every node first and then reading two scalars per edge, or reading two feature rows per edge
  and then scoring them, is the same sum of the same 64 products at the same row: no law of arithmetic is used
  beyond the sum being read at that row, so nothing here asks the inputs to be finite.
-/
import Idealize.ShloMosaic.PureOps.Ideal
import Idealize.ShloMosaic.PureOps.Ideal.Laws
import Idealize.ShloMosaic.Lib.ValueIdx

noncomputable section

open scoped BigOperators

namespace Cert.EdgeLogit

open Idealize.ShloMosaic Idealize.ShloMosaic.ValueIdx

/-- The table row a start index reads: the word as a signed integer, negative ones at row 0, clamped to the last row. -/
def nodeOf (w : BitVec 32) : Fin 50000 := ⟨min w.toInt.toNat (50000 - 1), by omega⟩

/-- A node's score against one 64-entry weight row: the sum over the features of feature times weight. -/
def nodeScore (h : (⟨2, ![50000, 64]⟩ : Shape).Idx → EReal) (w : (⟨2, ![1, 64]⟩ : Shape).Idx → EReal) (n : Fin 50000) : EReal :=
  ∑ k : Fin 64, h (ix2 n k) * w (ix2 (0 : Fin 1) k)

/-- The result at edge `i 0`: the logistic function of the source node's score against `wu` plus the destination
    node's against `wv`, plus the bias. `is` and `id` are the two columns of start indices. -/
def edgeLogit (h : (⟨2, ![50000, 64]⟩ : Shape).Idx → EReal) (is id : (⟨2, ![800000, 1]⟩ : Shape).Idx → BitVec 32)
    (wu wv : (⟨2, ![1, 64]⟩ : Shape).Idx → EReal) (b : (⟨1, ![1]⟩ : Shape).Idx → EReal) :
    (⟨2, ![800000, 1]⟩ : Shape).Idx → EReal :=
  fun i => Ideal.logistic (nodeScore h wu (nodeOf (is (ix2 (i 0) (0 : Fin 1)))) + nodeScore h wv (nodeOf (id (ix2 (i 0) (0 : Fin 1))))
    + b (ix1 (0 : Fin 1)))

/-- The word `0x3F800000` is the real number one. -/
theorem one_f32 : Ideal.ofBits .f32 0x3F800000#32 = 1 := IdealRules.sign_bit.ideal_onePat .f32

/-- The host's spelling of the logistic function — one over one plus the exponential of the negation, with both ones
    written as the word of `1.0` — is the logistic function. -/
theorem host_logistic (x : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) x))) = Ideal.logistic x := by
  rw [one_f32]; rfl

end Cert.EdgeLogit

end
-- ==== Proof.NodeScores.lean ====
/-
  The scoring region's two result arrays, as whole-array functions of what the region finds on entry.

  The region's ten grid points each take a block of 5000 consecutive nodes (all 64 features) and the two 64-entry weight
  rows, and write back the block's 5000 scores against each row. Point `t` holds nodes `5000·t … 5000·t + 4999`, and its
  two output blocks sit at the same rows, so what it writes back is the restriction to those rows of ONE function of the
  whole table: node `n`'s score. The ten row ranges cover the 50000 nodes (node `n` is in point `n / 5000`'s), so after
  the run each array holds every node's score.
-/
import proofs.«425207_j68066641707591_3_alg».proof.Proof.Gen.KernelIdeal.Frame
import proofs.«425207_j68066641707591_3_alg».proof.Proof.Payloads
import proofs.«425207_j68066641707591_3_alg».proof.Proof.Spec

set_option maxRecDepth 16384

noncomputable section

open scoped BigOperators

namespace Cert.KernelIdeal.NodeScores

open Cert.KernelIdeal Cert.KernelIdeal.Gen Cert.KernelIdeal.Payloads Cert.EdgeLogit
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The feature table, and the two weight rows, as the region finds them. -/
abbrev table (c : Dev nD) : Vec Ideal S50000x64 .f32 := V c main_arg0
abbrev rowU (c : Dev nD) : Vec Ideal S1x64 .f32 := V c main_v0
abbrev rowV (c : Dev nD) : Vec Ideal S1x64 .f32 := V c main_v1
/-- Point `t`'s block of the table and its copies of the weight rows. -/
abbrev featBlock (c : Dev nD) (t : Fin cfg0.N) : Vec Ideal S5000x64 .f32 := iblk0 V c 0 t
abbrev rowUBlock (c : Dev nD) (t : Fin cfg0.N) : Vec Ideal S1x64 .f32 := iblk0 V c 1 t
abbrev rowVBlock (c : Dev nD) (t : Fin cfg0.N) : Vec Ideal S1x64 .f32 := iblk0 V c 2 t

/-- Every node's score against the first weight row, as a 50000 × 1 column; -/
def scoresU (c : Dev nD) : Vec Ideal S50000x1 .f32 := fun i => nodeScore (table V c) (rowU V c) (i 0)
/-- and against the second. -/
def scoresV (c : Dev nD) : Vec Ideal S50000x1 .f32 := fun i => nodeScore (table V c) (rowV V c) (i 0)

/-- Where the blocks sit, decided over the ten points: the table's block and both output blocks at block row `t`, every
    other block index zero. -/
theorem point_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The table's block at point `t`, at (row `j 0` of the block, feature `k`), is the table at the row the first output
    block has there, same feature. -/
theorem featBlock_at3 (c : Dev nD) (t : Fin cfg0.N) (j : S5000x1.Idx) (k : Fin 64) :
    featBlock V c t (ix2 (j 0) k) = table V c (ix2 ((((cfg0.win 3).blk t).view.emb j) 0) k) := by
  obtain ⟨e0, e1, -, -, -, -, e6, -, -, -⟩ := point_facts t
  show V c main_arg0 (((cfg0.win 0).blk t).view.emb (ix2 (j 0) k)) = V c main_arg0 _
  refine congrArg (V c main_arg0) (funext fun a => Fin.ext ?_)
  match a with
  | ⟨0, _⟩ =>
    show win0_0.index t (0 : Fin 2) * 5000 + 1 * (j 0).val = win0_3.index t (0 : Fin 2) * 5000 + 1 * (j 0).val
    omega
  | ⟨1, _⟩ =>
    show win0_0.index t (1 : Fin 2) * 64 + 1 * k.val = k.val
    omega

/-- The same against the second output block. -/
theorem featBlock_at4 (c : Dev nD) (t : Fin cfg0.N) (j : S5000x1.Idx) (k : Fin 64) :
    featBlock V c t (ix2 (j 0) k) = table V c (ix2 ((((cfg0.win 4).blk t).view.emb j) 0) k) := by
  obtain ⟨e0, e1, -, -, -, -, -, -, e8, -⟩ := point_facts t
  show V c main_arg0 (((cfg0.win 0).blk t).view.emb (ix2 (j 0) k)) = V c main_arg0 _
  refine congrArg (V c main_arg0) (funext fun a => Fin.ext ?_)
  match a with
  | ⟨0, _⟩ =>
    show win0_0.index t (0 : Fin 2) * 5000 + 1 * (j 0).val = win0_4.index t (0 : Fin 2) * 5000 + 1 * (j 0).val
    omega
  | ⟨1, _⟩ =>
    show win0_0.index t (1 : Fin 2) * 64 + 1 * k.val = k.val
    omega

/-- A point's copy of the first weight row is the weight row. -/
theorem rowUBlock_at (c : Dev nD) (t : Fin cfg0.N) (k : Fin 64) : rowUBlock V c t (ix2 (0 : Fin 1) k) = rowU V c (ix2 (0 : Fin 1) k) := by
  obtain ⟨-, -, e2, e3, -⟩ := point_facts t
  show V c main_v0 (((cfg0.win 1).blk t).view.emb (ix2 (0 : Fin 1) k)) = V c main_v0 _
  refine congrArg (V c main_v0) (funext fun a => Fin.ext ?_)
  match a with
  | ⟨0, _⟩ => show win0_1.index t (0 : Fin 2) * 1 + 1 * 0 = 0; omega
  | ⟨1, _⟩ => show win0_1.index t (1 : Fin 2) * 64 + 1 * k.val = k.val; omega

/-- A point's copy of the second weight row is the weight row. -/
theorem rowVBlock_at (c : Dev nD) (t : Fin cfg0.N) (k : Fin 64) : rowVBlock V c t (ix2 (0 : Fin 1) k) = rowV V c (ix2 (0 : Fin 1) k) := by
  obtain ⟨-, -, -, -, e4, e5, -⟩ := point_facts t
  show V c main_v1 (((cfg0.win 2).blk t).view.emb (ix2 (0 : Fin 1) k)) = V c main_v1 _
  refine congrArg (V c main_v1) (funext fun a => Fin.ext ?_)
  match a with
  | ⟨0, _⟩ => show win0_2.index t (0 : Fin 2) * 1 + 1 * 0 = 0; omega
  | ⟨1, _⟩ => show win0_2.index t (1 : Fin 2) * 64 + 1 * k.val = k.val; omega

/-- A score block entry at a general index of the 5000 × 1 block. -/
theorem score_u_at (x0 : FVec Ideal S5000x64 .f32) (x1 : FVec Ideal S1x64 .f32) (j : S5000x1.Idx) :
    k0_pay1 (F := Ideal) x0 x1 j = ∑ k : Fin 64, x0 (ix2 (j 0) k) * x1 (ix2 (0 : Fin 1) k) := by
  obtain ⟨p, z, rfl⟩ : ∃ (p : Fin 5000) (z : Fin 1), j = ix2 p z := ⟨j 0, j 1, eq_ix2 j⟩
  exact score_u_apply x0 x1 p z
theorem score_v_at (x0 : FVec Ideal S5000x64 .f32) (x3 : FVec Ideal S1x64 .f32) (j : S5000x1.Idx) :
    k0_pay2 (F := Ideal) x0 x3 j = ∑ k : Fin 64, x0 (ix2 (j 0) k) * x3 (ix2 (0 : Fin 1) k) := by
  obtain ⟨p, z, rfl⟩ : ∃ (p : Fin 5000) (z : Fin 1), j = ix2 p z := ⟨j 0, j 1, eq_ix2 j⟩
  exact score_v_apply x0 x3 p z

/-- WHAT POINT `t` WRITES BACK through the first output window is its rows of `scoresU`. -/
theorem flushedU_eq (c : Dev nD) (t : Fin cfg0.N) :
    (dat0 V c).flushed 3 t = ((cfg0.win 3).blk t).view.read (Elt Ideal) (scoresU V c) := by
  show (cfg0.win 3).cut (grid0.coords t) ((dat0 V c).after 3 t) = _
  rw [after0_3]
  unfold out0_3
  rw [View.canon_unit_zero zeros2]
  simp only [View.ld_unit_zero (S := S5000x64) zeros2, View.ld_unit_zero (S := S1x64) zeros2]
  funext j
  show k0_pay1 (F := Ideal) (featBlock V c t) (rowUBlock V c t) j = scoresU V c (((cfg0.win 3).blk t).view.emb j)
  refine (score_u_at _ _ j).trans ?_
  unfold scoresU nodeScore
  exact Finset.sum_congr rfl fun k _ => by rw [featBlock_at3 V c t j k, rowUBlock_at V c t k]

/-- WHAT POINT `t` WRITES BACK through the second output window is its rows of `scoresV`. -/
theorem flushedV_eq (c : Dev nD) (t : Fin cfg0.N) :
    (dat0 V c).flushed 4 t = ((cfg0.win 4).blk t).view.read (Elt Ideal) (scoresV V c) := by
  show (cfg0.win 4).cut (grid0.coords t) ((dat0 V c).after 4 t) = _
  rw [after0_4]
  unfold out0_4
  rw [View.canon_unit_zero zeros2]
  simp only [View.ld_unit_zero (S := S5000x64) zeros2, View.ld_unit_zero (S := S1x64) zeros2]
  funext j
  show k0_pay2 (F := Ideal) (featBlock V c t) (rowVBlock V c t) j = scoresV V c (((cfg0.win 4).blk t).view.emb j)
  refine (score_v_at _ _ j).trans ?_
  unfold scoresV nodeScore
  exact Finset.sum_congr rfl fun k _ => by rw [featBlock_at4 V c t j k, rowVBlock_at V c t k]

/-- A node is in point `t`'s block of the first output array iff each coordinate is in the block's range. -/
theorem mem_blockU (t : Fin cfg0.N) (i : S50000x1.Idx) :
    i ∈ ((cfg0.win 3).blk t).view.set ↔ ∀ a : Fin 2, win0_3.index t a * S5000x1.size a ≤ (i a).val ∧ (i a).val < win0_3.index t a * S5000x1.size a + S5000x1.size a := by
  show i ∈ ((View.whole main_v3_0).slice (win0_3.rect t)).set ↔ _
  rw [View.set_slice_whole, Rect.mem_set_unit]
  exact Iff.rfl
theorem mem_blockV (t : Fin cfg0.N) (i : S50000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v3_1).slice (win0_4.rect t)).set ↔ _
  rw [View.set_slice_whole, Rect.mem_set_unit]
  exact Iff.rfl

/-- The point that holds node `n`: `n / 5000`. -/
def pointOf (i : S50000x1.Idx) : Fin cfg0.N :=
  ⟨(i 0).val / 5000, by
    have hN : grid0.N = 10 := N_0
    have hi : (i 0).val < 50000 := (i 0).isLt
    show (i 0).val / 5000 < grid0.N
    omega⟩

/-- Every node is in some point's block of the first output array; -/
theorem coveredU (i : S50000x1.Idx) : ∃ t : Fin cfg0.N, (cfg0.win 3).flush t = true ∧ i ∈ ((cfg0.win 3).blk t).view.set := by
  have hi0 : (i 0).val < 50000 := (i 0).isLt
  have hi1 : (i 1).val < 1 := (i 1).isLt
  have ht : (pointOf i).val = (i 0).val / 5000 := rfl
  obtain ⟨-, -, -, -, -, -, e6, e7, -, -⟩ := point_facts (pointOf i)
  refine ⟨pointOf i, flush0_3 _, ?_⟩
  rw [mem_blockU]
  intro a
  match a with
  | ⟨0, _⟩ =>
    show win0_3.index (pointOf i) (0 : Fin 2) * 5000 ≤ (i 0).val ∧ (i 0).val < win0_3.index (pointOf i) (0 : Fin 2) * 5000 + 5000
    omega
  | ⟨1, _⟩ =>
    show win0_3.index (pointOf i) (1 : Fin 2) * 1 ≤ (i 1).val ∧ (i 1).val < win0_3.index (pointOf i) (1 : Fin 2) * 1 + 1
    omega

/-- and of the second. -/
theorem coveredV (i : S50000x1.Idx) : ∃ t : Fin cfg0.N, (cfg0.win 4).flush t = true ∧ i ∈ ((cfg0.win 4).blk t).view.set := by
  have hi0 : (i 0).val < 50000 := (i 0).isLt
  have hi1 : (i 1).val < 1 := (i 1).isLt
  have ht : (pointOf i).val = (i 0).val / 5000 := rfl
  obtain ⟨-, -, -, -, -, -, -, -, e8, e9⟩ := point_facts (pointOf i)
  refine ⟨pointOf i, flush0_4 _, ?_⟩
  rw [mem_blockV]
  intro a
  match a with
  | ⟨0, _⟩ =>
    show win0_4.index (pointOf i) (0 : Fin 2) * 5000 ≤ (i 0).val ∧ (i 0).val < win0_4.index (pointOf i) (0 : Fin 2) * 5000 + 5000
    omega
  | ⟨1, _⟩ =>
    show win0_4.index (pointOf i) (1 : Fin 2) * 1 ≤ (i 1).val ∧ (i 1).val < win0_4.index (pointOf i) (1 : Fin 2) * 1 + 1
    omega

/-- THE FIRST SCORE ARRAY after the region: every node's score against the first weight row. -/
theorem arrayU (c : Dev nD) : (dat0 V c).arrAt 3 cfg0.N = scoresU V c :=
  (dat0 V c).arrAt_eq_of_cover 3 (scoresU V c) (fun t _ => flushedU_eq V c t) coveredU

/-- THE SECOND SCORE ARRAY after the region: every node's score against the second weight row. -/
theorem arrayV (c : Dev nD) : (dat0 V c).arrAt 4 cfg0.N = scoresV V c :=
  (dat0 V c).arrAt_eq_of_cover 4 (scoresV V c) (fun t _ => flushedV_eq V c t) coveredV

end Cert.KernelIdeal.NodeScores

end
-- ==== Proof.EdgeCombine.lean ====
/-
  The combining region's result array, as a whole-array function of what the region finds on entry.

  The region has one grid point whose blocks are the whole arrays: the two 6250 × 128 arrays of gathered scores, the one
  bias entry, and the 6250 × 128 result. The body adds the two scores and the bias at each (row, lane) and applies the
  logistic function; the one point's write-back is the whole result, so after the run the array holds that function.
-/
import proofs.«425207_j68066641707591_3_alg».proof.Proof.Gen.KernelIdeal.Frame
import proofs.«425207_j68066641707591_3_alg».proof.Proof.Payloads

set_option maxRecDepth 16384

noncomputable section

namespace Cert.KernelIdeal.EdgeCombine

open Cert.KernelIdeal Cert.KernelIdeal.Gen Cert.KernelIdeal.Payloads
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The two arrays of gathered scores and the bias entry, as the region finds them. -/
abbrev gatheredU (c : Dev nD) : Vec Ideal S6250x128 .f32 := V c main_v20
abbrev gatheredV (c : Dev nD) : Vec Ideal S6250x128 .f32 := V c main_v21
abbrev biasCell (c : Dev nD) : Vec Ideal S1x1 .f32 := V c main_v2
/-- The one point's blocks of them. -/
abbrev uBlock (c : Dev nD) (t : Fin cfg1.N) : Vec Ideal S6250x128 .f32 := iblk1 V c 0 t
abbrev vBlock (c : Dev nD) (t : Fin cfg1.N) : Vec Ideal S6250x128 .f32 := iblk1 V c 1 t
abbrev biasBlock (c : Dev nD) (t : Fin cfg1.N) : Vec Ideal S1x1 .f32 := iblk1 V c 2 t

/-- The logistic function of the two gathered scores plus the bias, at every (row, lane). -/
def combined (c : Dev nD) : Vec Ideal S6250x128 .f32 :=
  fun j => Ideal.logistic (gatheredU V c j + gatheredV V c j + biasCell V c (ix2 (0 : Fin 1) (0 : Fin 1)))

/-- Every block index is zero at the one point: each block is its whole array. -/
theorem point_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem uBlock_at (c : Dev nD) (t : Fin cfg1.N) (j : S6250x128.Idx) :
    uBlock V c t j = gatheredU V c (((cfg1.win 3).blk t).view.emb j) := by
  obtain ⟨e0, e1, -, -, -, -, e6, e7⟩ := point_facts t
  show V c main_v20 (((cfg1.win 0).blk t).view.emb j) = V c main_v20 _
  refine congrArg (V c main_v20) (funext fun a => Fin.ext ?_)
  match a with
  | ⟨0, _⟩ => show win1_0.index t (0 : Fin 2) * 6250 + 1 * (j 0).val = win1_3.index t (0 : Fin 2) * 6250 + 1 * (j 0).val; omega
  | ⟨1, _⟩ => show win1_0.index t (1 : Fin 2) * 128 + 1 * (j 1).val = win1_3.index t (1 : Fin 2) * 128 + 1 * (j 1).val; omega

theorem vBlock_at (c : Dev nD) (t : Fin cfg1.N) (j : S6250x128.Idx) :
    vBlock V c t j = gatheredV V c (((cfg1.win 3).blk t).view.emb j) := by
  obtain ⟨-, -, e2, e3, -, -, e6, e7⟩ := point_facts t
  show V c main_v21 (((cfg1.win 1).blk t).view.emb j) = V c main_v21 _
  refine congrArg (V c main_v21) (funext fun a => Fin.ext ?_)
  match a with
  | ⟨0, _⟩ => show win1_1.index t (0 : Fin 2) * 6250 + 1 * (j 0).val = win1_3.index t (0 : Fin 2) * 6250 + 1 * (j 0).val; omega
  | ⟨1, _⟩ => show win1_1.index t (1 : Fin 2) * 128 + 1 * (j 1).val = win1_3.index t (1 : Fin 2) * 128 + 1 * (j 1).val; omega

theorem biasBlock_at (c : Dev nD) (t : Fin cfg1.N) :
    biasBlock V c t (ix2 (0 : Fin 1) (0 : Fin 1)) = biasCell V c (ix2 (0 : Fin 1) (0 : Fin 1)) := by
  obtain ⟨-, -, -, -, e4, e5, -, -⟩ := point_facts t
  show V c main_v2 (((cfg1.win 2).blk t).view.emb (ix2 (0 : Fin 1) (0 : Fin 1))) = V c main_v2 _
  refine congrArg (V c main_v2) (funext fun a => Fin.ext ?_)
  match a with
  | ⟨0, _⟩ => show win1_2.index t (0 : Fin 2) * 1 + 1 * 0 = 0; omega
  | ⟨1, _⟩ => show win1_2.index t (1 : Fin 2) * 1 + 1 * 0 = 0; omega

/-- WHAT THE POINT WRITES BACK is `combined`, read through its block. -/
theorem flushed_eq (c : Dev nD) (t : Fin cfg1.N) :
    (dat1 V c).flushed 3 t = ((cfg1.win 3).blk t).view.read (Elt Ideal) (combined V c) := by
  show (cfg1.win 3).cut (grid1.coords t) ((dat1 V c).after 3 t) = _
  rw [after1_3]
  unfold out1_3
  rw [View.canon_unit_zero zeros2]
  simp only [View.ld_unit_zero (S := S6250x128) zeros2, View.ld_unit_zero (S := S1x1) zeros2]
  funext j
  show k1_pay1 (F := Ideal) (uBlock V c t) (vBlock V c t) (biasBlock V c t) j = combined V c (((cfg1.win 3).blk t).view.emb j)
  refine (combine_apply _ _ _ j).trans ?_
  unfold combined
  rw [uBlock_at V c t j, vBlock_at V c t j, biasBlock_at V c t]

/-- An index of the result array is in the point's block iff each coordinate is in the block's range. -/
theorem mem_block (t : Fin cfg1.N) (i : S6250x128.Idx) :
    i ∈ ((cfg1.win 3).blk t).view.set ↔ ∀ a : Fin 2, win1_3.index t a * S6250x128.size a ≤ (i a).val ∧ (i a).val < win1_3.index t a * S6250x128.size a + S6250x128.size a := by
  show i ∈ ((View.whole main_v22).slice (win1_3.rect t)).set ↔ _
  rw [View.set_slice_whole, Rect.mem_set_unit]
  exact Iff.rfl

/-- Every index of the result array is in the one point's block. -/
theorem covered (i : S6250x128.Idx) : ∃ t : Fin cfg1.N, (cfg1.win 3).flush t = true ∧ i ∈ ((cfg1.win 3).blk t).view.set := by
  have hi0 : (i 0).val < 6250 := (i 0).isLt
  have hi1 : (i 1).val < 128 := (i 1).isLt
  obtain ⟨-, -, -, -, -, -, e6, e7⟩ := point_facts t1_0
  refine ⟨t1_0, flush1_3 _, ?_⟩
  rw [mem_block]
  intro a
  match a with
  | ⟨0, _⟩ =>
    show win1_3.index t1_0 (0 : Fin 2) * 6250 ≤ (i 0).val ∧ (i 0).val < win1_3.index t1_0 (0 : Fin 2) * 6250 + 6250
    omega
  | ⟨1, _⟩ =>
    show win1_3.index t1_0 (1 : Fin 2) * 128 ≤ (i 1).val ∧ (i 1).val < win1_3.index t1_0 (1 : Fin 2) * 128 + 128
    omega

/-- THE RESULT ARRAY after the region. -/
theorem array (c : Dev nD) : (dat1 V c).arrAt 3 cfg1.N = combined V c :=
  (dat1 V c).arrAt_eq_of_cover 3 (combined V c) (fun t _ => flushed_eq V c t) covered

end Cert.KernelIdeal.EdgeCombine

end
-- ==== Proof.KernelValue.lean ====
/-
  The kernel's result is the specification.

  Between the launch and the return the buffers change five times: three host slices and a reshape; the scoring region;
  the host stretch that flattens the two score columns, builds the two columns of start indices, gathers one score per
  edge from each and lays the 800000 gathered scores out as 6250 rows of 128 lanes; the combining region; and the reshape
  of its 6250 × 128 result to the 800000 × 1 result. Read backwards from the result at edge `e`: its row-major
  position `e` is (row `e / 128`, lane `e % 128`) of the combining region's array, which holds the logistic function of
  the two gathered scores there plus the bias; the gathered score at that position is position `e` of the flat gather,
  the score column at the row the edge's start index names; and that column holds every node's score over the table and
  the weight row as launched. That is the specification at the launch memory.
-/
import proofs.«425207_j68066641707591_3_alg».proof.Proof.Gen.KernelIdeal.Frame
import proofs.«425207_j68066641707591_3_alg».proof.Proof.NodeScores
import proofs.«425207_j68066641707591_3_alg».proof.Proof.EdgeCombine
import proofs.«425207_j68066641707591_3_alg».proof.Proof.Spec

set_option maxRecDepth 16384

noncomputable section

open scoped BigOperators

namespace Cert.KernelIdeal.KernelValue

open Cert.KernelIdeal Cert.KernelIdeal.Gen Cert.KernelIdeal.NodeScores Cert.KernelIdeal.EdgeCombine Cert.EdgeLogit
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The column of start indices built from an index argument: a negative index moved up by the table's 50000 rows, the
    others kept, laid out as an 800000 × 1 column. -/
def startCol (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The two weight rows cut from the 1 × 128 weight argument. -/
def weightsU (w : FVec Ideal S1x128 .f32) : FVec Ideal S1x64 .f32 := extractStridedSlice S1x64 ![0, 0] w slices_S1x128_S1x64_0_0
def weightsV (w : FVec Ideal S1x128 .f32) : FVec Ideal S1x64 .f32 := extractStridedSlice S1x64 ![0, 64] w slices_S1x128_S1x64_0_64

/-! ## What the scoring region finds -/

theorem entry0_table (c : Dev nD) : (V1 m ρ c main_arg0 : S50000x64.Idx → EReal) = m ((c : Thread nD τ).loc main_arg0) := by
  show StableHlo.after hostOps0 (W0 m ρ c) (Proc.devRef .tc main_arg0) = _
  after_results <;> rfl

theorem entry0_rowU (c : Dev nD) : (V1 m ρ c main_v0 : S1x64.Idx → EReal) = weightsU (m ((c : Thread nD τ).loc main_arg3)) := by
  show StableHlo.after hostOps0 (W0 m ρ c) (Proc.devRef .tc main_v0) = _
  after_results <;> rfl

theorem entry0_rowV (c : Dev nD) : (V1 m ρ c main_v1 : S1x64.Idx → EReal) = weightsV (m ((c : Thread nD τ).loc main_arg3)) := by
  show StableHlo.after hostOps0 (W0 m ρ c) (Proc.devRef .tc main_v1) = _
  after_results <;> rfl

/-- The first host stretch writes neither index argument, nor does the scoring region. -/
theorem exit0_src (c : Dev nD) : (W2 m ρ c (Proc.devRef .tc main_arg1) : S800000.Idx → BitVec 32) = m ((c : Thread nD τ).loc main_arg1) := by
  refine (W2_of_ne m ρ c main_arg1 (by decide)).trans ?_
  show StableHlo.after hostOps0 (W0 m ρ c) (Proc.devRef .tc main_arg1) = _
  after_results <;> rfl
theorem exit0_dst (c : Dev nD) : (W2 m ρ c (Proc.devRef .tc main_arg2) : S800000.Idx → BitVec 32) = m ((c : Thread nD τ).loc main_arg2) := by
  refine (W2_of_ne m ρ c main_arg2 (by decide)).trans ?_
  show StableHlo.after hostOps0 (W0 m ρ c) (Proc.devRef .tc main_arg2) = _
  after_results <;> rfl
/-- The bias as a 1 × 1 cell is written by the first host stretch and kept by the scoring region. -/
theorem exit0_bias (c : Dev nD) : (W2 m ρ c (Proc.devRef .tc main_v2) : S1x1.Idx → EReal) = shapeCast S1x1 (m ((c : Thread nD τ).loc main_arg4)) shapeCasts_S1_S1x1 := by
  refine (W2_of_ne m ρ c main_v2 (by decide)).trans ?_
  show StableHlo.after hostOps0 (W0 m ρ c) (Proc.devRef .tc main_v2) = _
  after_results <;> rfl
/-- The two score columns as the scoring region leaves them. -/
theorem exit0_scoresU (c : Dev nD) : (W2 m ρ c (Proc.devRef .tc main_v3_0) : S50000x1.Idx → EReal) = scoresU (V1 m ρ) c :=
  (W2_arr m ρ c 3).trans (arrayU (V1 m ρ) c)
theorem exit0_scoresV (c : Dev nD) : (W2 m ρ c (Proc.devRef .tc main_v3_1) : S50000x1.Idx → EReal) = scoresV (V1 m ρ) c :=
  (W2_arr m ρ c 4).trans (arrayV (V1 m ρ) c)

/-! ## What the combining region finds -/

theorem entry1_gatheredU (c : Dev nD) : (V3 m ρ c main_v20 : S6250x128.Idx → EReal)
    = shapeCast S6250x128 (Host.gather gather_S50000_S800000x1_S800000_n_0_n_n_0_1_1 (shapeCast S50000 (scoresU (V1 m ρ) c) shapeCasts_S50000x1_S50000)
        (startCol (m ((c : Thread nD τ).loc main_arg1)))) shapeCasts_S800000_S6250x128 := by
  show StableHlo.after hostOps1 (W2 m ρ c) (Proc.devRef .tc main_v20) = _
  after_results
  rw [exit0_scoresU, exit0_src]
  rfl

theorem entry1_gatheredV (c : Dev nD) : (V3 m ρ c main_v21 : S6250x128.Idx → EReal)
    = shapeCast S6250x128 (Host.gather gather_S50000_S800000x1_S800000_n_0_n_n_0_1_1 (shapeCast S50000 (scoresV (V1 m ρ) c) shapeCasts_S50000x1_S50000)
        (startCol (m ((c : Thread nD τ).loc main_arg2)))) shapeCasts_S800000_S6250x128 := by
  show StableHlo.after hostOps1 (W2 m ρ c) (Proc.devRef .tc main_v21) = _
  after_results
  rw [exit0_scoresV, exit0_dst]
  rfl

theorem entry1_bias (c : Dev nD) : (V3 m ρ c main_v2 : S1x1.Idx → EReal) = shapeCast S1x1 (m ((c : Thread nD τ).loc main_arg4)) shapeCasts_S1_S1x1 := by
  show StableHlo.after hostOps1 (W2 m ρ c) (Proc.devRef .tc main_v2) = _
  after_results
  exact exit0_bias m ρ c

/-! ## Reading at an edge -/

/-- The gather of scalars from a flat 50000-entry column, at edge `e`: the entry at the row the edge's start index
    names. -/
theorem gather_scalar {α : Type} (x : S50000.Idx → α) (idx : IVec S800000x1 32) (e : Fin 800000) :
    Host.gather gather_S50000_S800000x1_S800000_n_0_n_n_0_1_1 x idx (ix1 e) = x (ix1 (nodeOf (idx (ix2 e (0 : Fin 1))))) := by
  unfold Host.gather
  congr 1
  funext a
  refine Fin.ext ?_
  match a with
  | ⟨0, _⟩ =>
    show gather_S50000_S800000x1_S800000_n_0_n_n_0_1_1.start (ix1 e) idx 0 + gather_S50000_S800000x1_S800000_n_0_n_n_0_1_1.batchCoord (ix1 e) 0 + gather_S50000_S800000x1_S800000_n_0_n_n_0_1_1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S50000_S800000x1_S800000_n_0_n_n_0_1_1.startIndexMap from List.mem_singleton.mpr rfl)]
    have hsi : gather_S50000_S800000x1_S800000_n_0_n_n_0_1_1.siIdx (ix1 e) ⟨List.idxOf (0 : Fin 1) gather_S50000_S800000x1_S800000_n_0_n_n_0_1_1.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- A 50000 × 1 column flattened reads, at row `n`, the column's entry (n, 0). -/
theorem flat_column_apply {α : Type} (v : S50000x1.Idx → α) (n : Fin 50000) :
    shapeCast S50000 v shapeCasts_S50000x1_S50000 (ix1 n) = v (ix2 n (0 : Fin 1)) :=
  shapeCast_apply v shapeCasts_S50000x1_S50000 (ix1 n) (ix2 n (0 : Fin 1)) (by
    rw [Shape.rowMajor_val_one, Shape.rowMajor_val_two]
    show n.val * 1 + 0 = n.val
    omega)

/-- The row and lane of the 6250 × 128 layout that hold edge `e`. -/
def rowLane (e : Fin 800000) : S6250x128.Idx :=
  ix2 (⟨e.val / 128, by have := e.isLt; omega⟩ : Fin 6250) (⟨e.val % 128, by omega⟩ : Fin 128)

/-- The 800000 edges laid out as 6250 rows of 128 lanes read, at an edge's row and lane, the edge's entry. -/
theorem lanes_apply {α : Type} (v : S800000.Idx → α) (e : Fin 800000) :
    shapeCast S6250x128 v shapeCasts_S800000_S6250x128 (rowLane e) = v (ix1 e) :=
  shapeCast_apply v shapeCasts_S800000_S6250x128 (rowLane e) (ix1 e) (by
    rw [Shape.rowMajor_val_one, Shape.rowMajor_val_two]
    show e.val = e.val / 128 * 128 + e.val % 128
    omega)

/-- The 6250 × 128 result flattened to 800000 × 1 reads, at edge `e`, the entry at the edge's row and lane. -/
theorem unlanes_apply {α : Type} (v : S6250x128.Idx → α) (e : Fin 800000) :
    shapeCast S800000x1 v shapeCasts_S6250x128_S800000x1 (ix2 e (0 : Fin 1)) = v (rowLane e) :=
  shapeCast_apply v shapeCasts_S6250x128_S800000x1 (ix2 e (0 : Fin 1)) (rowLane e) (by
    rw [Shape.rowMajor_val_two, Shape.rowMajor_val_two]
    show e.val / 128 * 128 + e.val % 128 = e.val * 1 + 0
    omega)

/-- The bias cell reads the bias's one entry. -/
theorem bias_cell_apply {α : Type} (b : S1.Idx → α) :
    shapeCast S1x1 b shapeCasts_S1_S1x1 (ix2 (0 : Fin 1) (0 : Fin 1)) = b (ix1 (0 : Fin 1)) :=
  shapeCast_apply b shapeCasts_S1_S1x1 (ix2 (0 : Fin 1) (0 : Fin 1)) (ix1 (0 : Fin 1)) (by
    rw [Shape.rowMajor_val_one, Shape.rowMajor_val_two]
    show (0 : Nat) = 0 * 1 + 0
    rfl)

/-- The gathered first score at an edge's row and lane: the source node's score over the launch memory. -/
theorem gatheredU_at (c : Dev nD) (e : Fin 800000) :
    gatheredU (V3 m ρ) c (rowLane e)
      = nodeScore (m ((c : Thread nD τ).loc main_arg0)) (weightsU (m ((c : Thread nD τ).loc main_arg3)))
          (nodeOf (startCol (m ((c : Thread nD τ).loc main_arg1)) (ix2 e (0 : Fin 1)))) := by
  show (V3 m ρ c main_v20 : S6250x128.Idx → EReal) (rowLane e) = _
  rw [entry1_gatheredU, lanes_apply, gather_scalar, flat_column_apply]
  show nodeScore (V1 m ρ c main_arg0) (V1 m ρ c main_v0) _ = _
  rw [entry0_table, entry0_rowU]

/-- The gathered second score at an edge's row and lane: the destination node's score over the launch memory. -/
theorem gatheredV_at (c : Dev nD) (e : Fin 800000) :
    gatheredV (V3 m ρ) c (rowLane e)
      = nodeScore (m ((c : Thread nD τ).loc main_arg0)) (weightsV (m ((c : Thread nD τ).loc main_arg3)))
          (nodeOf (startCol (m ((c : Thread nD τ).loc main_arg2)) (ix2 e (0 : Fin 1)))) := by
  show (V3 m ρ c main_v21 : S6250x128.Idx → EReal) (rowLane e) = _
  rw [entry1_gatheredV, lanes_apply, gather_scalar, flat_column_apply]
  show nodeScore (V1 m ρ c main_arg0) (V1 m ρ c main_v1) _ = _
  rw [entry0_table, entry0_rowV]

/-- The bias cell the combining region finds, at its one entry: the bias as launched. -/
theorem biasCell_at (c : Dev nD) :
    biasCell (V3 m ρ) c (ix2 (0 : Fin 1) (0 : Fin 1)) = m ((c : Thread nD τ).loc main_arg4) (ix1 (0 : Fin 1)) := by
  show (V3 m ρ c main_v2 : S1x1.Idx → EReal) (ix2 (0 : Fin 1) (0 : Fin 1)) = _
  rw [entry1_bias, bias_cell_apply]

/-! ## The result -/

/-- The result buffer after the last host stretch is the combining region's array, flattened. -/
theorem result_layout (c : Dev nD) : (W5 m ρ c (Proc.devRef .tc main_v23) : S800000x1.Idx → EReal)
    = shapeCast S800000x1 (combined (V3 m ρ) c) shapeCasts_S6250x128_S800000x1 := by
  show StableHlo.after hostOps2 (W4 m ρ c) (Proc.devRef .tc main_v23) = _
  after_results
  rw [show (W4 m ρ c (Proc.devRef .tc main_v22) : S6250x128.Idx → EReal) = combined (V3 m ρ) c from
    (W4_arr m ρ c 3).trans (EdgeCombine.array (V3 m ρ) c)]
  rfl

/-- THE KERNEL'S RESULT: the specification at the launch memory's table, the two columns of start indices built from
    the two index arguments, the two weight rows cut from the weight argument, and the bias. -/
theorem result_eq (c : Dev nD) : (W5 m ρ c (Proc.devRef .tc main_v23) : S800000x1.Idx → EReal)
    = edgeLogit (m ((c : Thread nD τ).loc main_arg0)) (startCol (m ((c : Thread nD τ).loc main_arg1)))
        (startCol (m ((c : Thread nD τ).loc main_arg2))) (weightsU (m ((c : Thread nD τ).loc main_arg3)))
        (weightsV (m ((c : Thread nD τ).loc main_arg3))) (m ((c : Thread nD τ).loc main_arg4)) := by
  rw [result_layout]
  funext i
  obtain ⟨e, z, rfl⟩ : ∃ (e : Fin 800000) (z : Fin 1), i = ix2 e z := ⟨i 0, i 1, eq_ix2 i⟩
  obtain rfl : z = 0 := Subsingleton.elim _ _
  rw [unlanes_apply]
  unfold combined edgeLogit
  rw [gatheredU_at, gatheredV_at, biasCell_at]

end Cert.KernelIdeal.KernelValue

end
-- ==== Proof.RefValue.lean ====
/-
  The reference's result is the specification.

  The reference reads, for each edge, the two 64-feature rows its start indices name (a gather along the row axis:
  row `nodeOf` of the start index, column kept), contracts each row with a weight row over the 64 features, adds the
  two and the bias, and applies one over one plus the exponential of the negation. Read at an edge, the contraction is
  the 64-term sum of the gathered row against the weight row, which is the node's score; the rest is the logistic
  function's own spelling.
-/
import proofs.«425207_j68066641707591_3_alg».proof.Proof.Gen.ReferenceIdeal.Read
import proofs.«425207_j68066641707591_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.EdgeLogit

/-- The gather of rows, read at (edge, feature): the table at the row the edge's start index names — the word read
    signed and clamped into the table — and at the same feature. The row axis is collapsed and start-indexed with slice
    size one; the feature axis is the result's one offset axis, so it starts at zero and keeps the coordinate. -/
theorem gather_row {α : Type} (x : S50000x64.Idx → α) (idx : IVec S800000x1 32) (e : Fin 800000) (k : Fin 64) :
    Host.gather gather_S50000x64_S800000x1_S800000x64_1_0_n_n_0_1_164 x idx (ix2 e k) = x (ix2 (nodeOf (idx (ix2 e (0 : Fin 1)))) k) := by
  unfold Host.gather
  congr 1
  funext a
  refine Fin.ext ?_
  match a with
  | ⟨0, _⟩ =>
    show gather_S50000x64_S800000x1_S800000x64_1_0_n_n_0_1_164.start (ix2 e k) idx 0 + gather_S50000x64_S800000x1_S800000x64_1_0_n_n_0_1_164.batchCoord (ix2 e k) 0 + gather_S50000x64_S800000x1_S800000x64_1_0_n_n_0_1_164.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S800000x1_S800000x64_1_0_n_n_0_1_164.startIndexMap from List.mem_singleton.mpr rfl)]
    have hsi : gather_S50000x64_S800000x1_S800000x64_1_0_n_n_0_1_164.siIdx (ix2 e k) ⟨List.idxOf (0 : Fin 2) gather_S50000x64_S800000x1_S800000x64_1_0_n_n_0_1_164.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S50000x64_S800000x1_S800000x64_1_0_n_n_0_1_164.start (ix2 e k) idx 1 + gather_S50000x64_S800000x1_S800000x64_1_0_n_n_0_1_164.batchCoord (ix2 e k) 1 + gather_S50000x64_S800000x1_S800000x64_1_0_n_n_0_1_164.offCoord (ix2 e k) 1 = k.val
    rw [GatherDims.batchCoord_eq_zero _ _ _ List.not_mem_nil]
    unfold GatherDims.start
    rw [dif_neg (show (1 : Fin 2) ∉ gather_S50000x64_S800000x1_S800000x64_1_0_n_n_0_1_164.startIndexMap from by decide)]
    unfold GatherDims.offCoord
    rw [dif_pos (show (1 : Fin 2) ∈ gather_S50000x64_S800000x1_S800000x64_1_0_n_n_0_1_164.sKept from by decide)]
    simp only [Nat.zero_add, Nat.add_zero]
    rfl

/-- The bias's two broadcasts read the bias's one entry. -/
theorem bias_idx (i : S800000x1.Idx) : idx_main_v19 (idx_main_v20 i) = ix1 (0 : Fin 1) :=
  funext fun a => by match a with | ⟨0, _⟩ => rfl

/-- THE REFERENCE'S RESULT, read at an edge: the specification at the two columns of start indices the reference
    builds, the two weight rows it slices, the table and the bias. -/
theorem result_eq (x0 : (⟨S50000x64, .f32⟩ : BufTy).Contents (Elt Ideal)) (x1 x2 : (⟨S800000, .i32⟩ : BufTy).Contents (Elt Ideal))
    (x3 : (⟨S1x128, .f32⟩ : BufTy).Contents (Elt Ideal)) (x4 : (⟨S1, .f32⟩ : BufTy).Contents (Elt Ideal)) :
    val_main_v27 (F := Ideal) x0 x1 x2 x3 x4
      = edgeLogit x0 (val_main_v5 (F := Ideal) x1) (val_main_v12 (F := Ideal) x2) (val_main_v14 (F := Ideal) x3) (val_main_v15 (F := Ideal) x3) x4 := by
  funext i
  obtain ⟨e, z, rfl⟩ : ∃ (e : Fin 800000) (z : Fin 1), i = ix2 e z := ⟨i 0, i 1, eq_ix2 i⟩
  obtain rfl : z = 0 := Subsingleton.elim _ _
  rw [val_main_v27_apply, val_main_v26_apply, val_main_cst_3_apply, val_main_v25_apply, val_main_v24_apply, val_main_cst_apply,
    val_main_v23_apply, val_main_v22_apply, val_main_v21_apply, val_main_v18_apply, val_main_v16_apply, val_main_v17_apply,
    val_main_v20_apply, val_main_v19_apply, bias_idx]
  have hu : ∀ k : Fin 64, val_main_v6 (F := Ideal) x0 x1 (lidx_main_v16 (ix2 e (0 : Fin 1)) k) * val_main_v14 (F := Ideal) x3 (ridx_main_v16 (ix2 e (0 : Fin 1)) k)
      = x0 (ix2 (nodeOf (val_main_v5 (F := Ideal) x1 (ix2 e (0 : Fin 1)))) k) * val_main_v14 (F := Ideal) x3 (ix2 (0 : Fin 1) k) := fun k => by
    have el : lidx_main_v16 (ix2 e (0 : Fin 1)) k = ix2 e k := funext fun a => by match a with | ⟨0, _⟩ => rfl | ⟨1, _⟩ => rfl
    have er : ridx_main_v16 (ix2 e (0 : Fin 1)) k = ix2 (0 : Fin 1) k := funext fun a => by match a with | ⟨0, _⟩ => rfl | ⟨1, _⟩ => rfl
    rw [el, er]; unfold val_main_v6; rw [gather_row]
  have hv : ∀ k : Fin 64, val_main_v13 (F := Ideal) x0 x2 (lidx_main_v17 (ix2 e (0 : Fin 1)) k) * val_main_v15 (F := Ideal) x3 (ridx_main_v17 (ix2 e (0 : Fin 1)) k)
      = x0 (ix2 (nodeOf (val_main_v12 (F := Ideal) x2 (ix2 e (0 : Fin 1)))) k) * val_main_v15 (F := Ideal) x3 (ix2 (0 : Fin 1) k) := fun k => by
    have el : lidx_main_v17 (ix2 e (0 : Fin 1)) k = ix2 e k := funext fun a => by match a with | ⟨0, _⟩ => rfl | ⟨1, _⟩ => rfl
    have er : ridx_main_v17 (ix2 e (0 : Fin 1)) k = ix2 (0 : Fin 1) k := funext fun a => by match a with | ⟨0, _⟩ => rfl | ⟨1, _⟩ => rfl
    rw [el, er]; unfold val_main_v13; rw [gather_row]
  rw [Finset.sum_congr rfl fun k _ => hu k, Finset.sum_congr rfl fun k _ => hv k]
  exact host_logistic _

end Cert.ReferenceIdeal.RefValue

end
-- ==== Proof.lean ====
/-
  The certificate's claim, assembled.

  Both programs compute, for each of 800000 edges, the logistic function of (the source node's score against the first
  64 weights) + (the destination node's score against the last 64 weights) + bias, where a node's score is the sum over
  its 64 features of feature times weight and the node an index names is the index read signed and clamped into the
  50000 rows. The kernel scores all 50000 nodes first (ten blocks of 5000 rows, a lane sum per row), gathers one scalar
  per edge from each score column, and combines them in a second region; the reference gathers the two 64-feature rows
  per edge and contracts each with its weight row. The two orders read the same 64 products at the same row, so the
  results agree entry by entry over the extended reals, with no use of the inputs being finite: `Proof/Spec.lean` states
  the common function, `Proof/KernelValue.lean` that the kernel's result buffer ends at it (over the run of
  `Proof/KernelRun.lean`, the two regions' arrays from `Proof/NodeScores.lean` and `Proof/EdgeCombine.lean`), and
  `Proof/RefValue.lean` that the reference's does. The idealization rewrote nothing, so `preserves` is `True`.
-/
import proofs.«425207_j68066641707591_3_alg».proof.Defs
import proofs.«425207_j68066641707591_3_alg».proof.Proof.Gen.Kernel
import proofs.«425207_j68066641707591_3_alg».proof.Proof.Gen.Kernel.Skeleton
import proofs.«425207_j68066641707591_3_alg».proof.Proof.Gen.Kernel.Launch
import proofs.«425207_j68066641707591_3_alg».proof.Proof.Gen.Kernel.Points
import proofs.«425207_j68066641707591_3_alg».proof.Proof.Gen.Kernel.Frame
import proofs.«425207_j68066641707591_3_alg».proof.Proof.Gen.KernelIdeal
import proofs.«425207_j68066641707591_3_alg».proof.Proof.Gen.KernelIdeal.Skeleton
import proofs.«425207_j68066641707591_3_alg».proof.Proof.Gen.KernelIdeal.Launch
import proofs.«425207_j68066641707591_3_alg».proof.Proof.Gen.KernelIdeal.Points
import proofs.«425207_j68066641707591_3_alg».proof.Proof.Gen.KernelIdeal.Frame
import proofs.«425207_j68066641707591_3_alg».proof.Proof.Gen.ReferenceIdeal
import proofs.«425207_j68066641707591_3_alg».proof.Proof.Gen.ReferenceIdeal.Run
import proofs.«425207_j68066641707591_3_alg».proof.Proof.Gen.ReferenceIdeal.Read
import proofs.«425207_j68066641707591_3_alg».proof.Proof.Gen.Pre_finite_inputs
import proofs.«425207_j68066641707591_3_alg».proof.Proof.KernelRun
import proofs.«425207_j68066641707591_3_alg».proof.Proof.KernelValue
import proofs.«425207_j68066641707591_3_alg».proof.Proof.RefValue
import Idealize.ShloMosaic.Adequacy
import Idealize.ShloMosaic.Init

noncomputable section

namespace Cert.Proof

open Idealize.ShloMosaic Idealize.ShloMosaic.TcCoe Idealize.SL.Sem Cert.EdgeLogit

/-- The kernel as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the five arguments, both programs end with the result buffer
    at the specification of those arguments. -/
theorem algebraic : Cert.algebraic_KernelIdeal_ReferenceIdeal := by
  intro m ρ m' ρ' _ hagree
  refine ⟨fun c => edgeLogit (m ((c.tc : Thread Cert.KernelIdeal.nD Cert.KernelIdeal.τ).loc Cert.KernelIdeal.main_arg0))
      (Cert.KernelIdeal.KernelValue.startCol (m ((c.tc : Thread Cert.KernelIdeal.nD Cert.KernelIdeal.τ).loc Cert.KernelIdeal.main_arg1)))
      (Cert.KernelIdeal.KernelValue.startCol (m ((c.tc : Thread Cert.KernelIdeal.nD Cert.KernelIdeal.τ).loc Cert.KernelIdeal.main_arg2)))
      (Cert.KernelIdeal.KernelValue.weightsU (m ((c.tc : Thread Cert.KernelIdeal.nD Cert.KernelIdeal.τ).loc Cert.KernelIdeal.main_arg3)))
      (Cert.KernelIdeal.KernelValue.weightsV (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KernelValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v27_eq (F := Ideal) _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
